-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S512x64 : Shape := ⟨2, ![512, 64]⟩
abbrev S512 : Shape := ⟨1, ![512]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S65536x64 .f32) (main_arg1 : FVec F S512x64 .f32) (main_arg2 : FVec F S512 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S65536x64 : Shape := ⟨2, ![65536, 64]⟩
abbrev S512x64 : Shape := ⟨2, ![512, 64]⟩
abbrev S512 : Shape := ⟨1, ![512]⟩
abbrev S1x512 : Shape := ⟨2, ![1, 512]⟩
abbrev S65536x512 : Shape := ⟨2, ![65536, 512]⟩
abbrev S2048x64 : Shape := ⟨2, ![2048, 64]⟩
abbrev S2048x512 : Shape := ⟨2, ![2048, 512]⟩
abbrev S2048 : Shape := ⟨1, ![2048]⟩
abbrev S2048x1 : Shape := ⟨2, ![2048, 1]⟩

abbrev nBuf : Space → Nat
  | .hbm => 5
  | .vmem => 6
  | .smem => 0
  | _ => 0

abbrev bufTy : (tb : Table) → Fin (tcTables nBuf tb) → BufTy
  | .hbm, ⟨0, _⟩ => ⟨S65536x64, .f32⟩
  | .hbm, ⟨1, _⟩ => ⟨S512x64, .f32⟩
  | .hbm, ⟨2, _⟩ => ⟨S512, .f32⟩
  | .hbm, ⟨3, _⟩ => ⟨S1x512, .f32⟩
  | .hbm, ⟨4, _⟩ => ⟨S65536x512, .f32⟩
  | .local _ .vmem, ⟨0, _⟩ => ⟨S2048x64, .f32⟩
  | .local _ .vmem, ⟨1, _⟩ => ⟨S2048x64, .f32⟩
  | .local _ .vmem, ⟨2, _⟩ => ⟨S512x64, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S1x512 : S512.ShapeCasts S1x512
  inb_S2048x64_S2048x64_0_0 : ∀ a, (![0, 0] : Fin 2 → Nat) a + S2048x64.size a ≤ S2048x64.size a
  h_S2048x64 : 0 < S2048x64.numel
  inb_S512x64_S512x64_0_0 : ∀ a, (![0, 0] : Fin 2 → Nat) a + S512x64.size a ≤ S512x64.size a
  h_S512x64 : 0 < S512x64.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x64_S2048 : S2048x64.Reduces [1] S2048
  shapeCasts_S2048_S2048x1 : S2048.ShapeCasts S2048x1
  reduces_S512x64_S512 : S512x64.Reduces [1] S512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x64_S512x64_S2048x512_1_1_0_0_n_n_wf : DotDims.WF S2048x64 S512x64 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x64 : Shape := ⟨2, ![65536, 64]⟩
abbrev S512x64 : Shape := ⟨2, ![512, 64]⟩
abbrev S512 : Shape := ⟨1, ![512]⟩
abbrev S_ : Shape := ⟨0, ![]⟩
abbrev S65536 : Shape := ⟨1, ![65536]⟩
abbrev S65536x1 : Shape := ⟨2, ![65536, 1]⟩
abbrev S1x512 : Shape := ⟨2, ![1, 512]⟩
abbrev S65536x512 : Shape := ⟨2, ![65536, 512]⟩
abbrev S64x512 : Shape := ⟨2, ![64, 512]⟩

abbrev nBuf : Space → Nat
  | .hbm => 28
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S512x64, .f32⟩
  | .hbm, ⟨2, _⟩ => ⟨S512, .f32⟩
  | .hbm, ⟨3, _⟩ => ⟨S65536x64, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S512x64, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536x64, .f32⟩
  | .hbm, ⟨16, _⟩ => ⟨S65536x64, .f32⟩
  | .hbm, ⟨17, _⟩ => ⟨S64x512, .f32⟩
  | .hbm, ⟨18, _⟩ => ⟨S65536x512, .f32⟩
  | .hbm, ⟨19, _⟩ => ⟨S65536x512, .f32⟩
  | .hbm, ⟨20, _⟩ => ⟨S_, .f32⟩
  | .hbm, ⟨21, _⟩ => ⟨S65536x512, .f32⟩
  | .hbm, ⟨22, _⟩ => ⟨S65536x512, .f32⟩
  | .hbm, ⟨23, _⟩ => ⟨S1x512, .f32⟩
  | .hbm, ⟨24, _⟩ => ⟨S1x512, .f32⟩
  | .hbm, ⟨25, _⟩ => ⟨S65536x512, .f32⟩
  | .hbm, ⟨26, _⟩ => ⟨S65536x512, .f32⟩
  | .hbm, ⟨27, _⟩ => ⟨S65536x512, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S512x64_S512_d1 : S512x64.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x64 : S_.BroadcastsInDim S65536x64 (![] : Fin 0 → Fin S65536x64.rank)
  transposes_S512x64_S64x512_1_0 : S512x64.Transposes [1, 0] S64x512
  bcast_S_S65536x512 : S_.BroadcastsInDim S65536x512 (![] : Fin 0 → Fin S65536x512.rank)
  dot_S65536x64_S64x512_S65536x512_1_0_0_1_n_n_wf : DotDims.WF S65536x64 S64x512 S65536x512 [1] [0] [0] [1] [] []

variable [Facts₀]

def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf

class Facts : Prop extends Facts₀ where

variable [Facts]
-- ==== Proof.LibKeepdims.lean ====
/-
  General lemmas for kernels that keep a reduced axis as a column (`sum(..., keepdims=True)`) and for moving a
  finite factor through a finite sum of extended reals.

  · `mul_sum_of_nonneg_of_ne_top`: on the extended reals `a · Σ f = Σ a · f` for a factor `0 ≤ a < ⊤`, with no condition
    on the terms (they may hold both infinities: scaling by a nonnegative real keeps each term's sign and infinity,
    and by zero the law is `0 = 0`).
  · `shapeCast_column`: an `[a]` vector viewed as the column `[a, 1]`, read at an entry.
  · `broadcastTo_column`: a column `[a, 1]` laid across `b` columns to `[a, b]`, read at an entry.
  · `rowSum`: the f32 lane sum of an `[n, w]` value over its second axis from the zero word, read at a row, as a
    sum over `Fin w`.
  Indices are built with `ValueIdx.ix1` / `ix2`, so every coordinate has a literal `Fin` type.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibKeepdims

open Idealize.ShloMosaic Idealize.ShloMosaic.ValueIdx

/-- A finite nonnegative extended real moves inside a finite sum of extended reals, whatever the terms are. -/
theorem mul_sum_of_nonneg_of_ne_top {ι : Type*} {a : EReal} (ha : 0 ≤ a) (ha' : a ≠ ⊤) (s : Finset ι) (f : ι → EReal) :
    a * ∑ k ∈ s, f k = ∑ k ∈ s, a * f k := by
  classical
  induction s using Finset.induction_on with
  | empty => simp
  | insert b s hb ih =>
    rw [Finset.sum_insert hb, Finset.sum_insert hb, EReal.left_distrib_of_nonneg_of_ne_top ha ha', ih]

/-- An `[a]` vector cast to the column `[a, 1]` reads, at `(i, u)`, the vector at `i`. -/
theorem shapeCast_column {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry `p`. -/
theorem broadcastTo_column {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 lane sum of an `[n, w]` value over its second axis, from the zero word, at row `p`: the sum of that row's
    `w` entries. (Apply it in term mode — `refine (rowSum …).trans ?_`, `congrArg` — against a printed payload: the
    printed proof arguments are spelt differently from a lemma's, which `rw` and `simp` do not see through.) -/
theorem rowSum {n w : ℕ} (v : FVec Ideal (⟨2, ![n, w]⟩ : Shape) .f32) (h : Shape.Reduces (⟨2, ![n, w]⟩ : Shape) [1] (⟨1, ![n]⟩ : Shape))
    (hφ : FKind.Formats .f32) (hacc : (0x00000000#32 : BitVec 32) = FKind.add.neutral .f32 hφ) (p : Fin n) :
    multiReduction .add [1] (⟨1, ![n]⟩ : Shape) v 0x00000000#32 h hφ hacc (ix1 p) = ∑ d : Fin w, v (ix2 p d) := by
  refine (Ideal.multiReduction_add_single v _ h hφ hacc (ix1 p)).trans ?_
  exact Finset.sum_congr rfl fun d _ => congrArg v (funext fun a => Fin.ext (by match a with | ⟨0, _⟩ => rfl | ⟨1, _⟩ => rfl))

end Cert.LibKeepdims

end
-- ==== Proof.RbfSpec.lean ====
/-
  The radial-basis layer as one function of its three argument arrays, over the extended reals.

  For a batch `x : [n, 64]`, centres `c : [k, 64]` and widths `β : [k]` the layer's entry (r, q) is
    exp ((0 - β q) · max (‖x r‖² + ‖c q‖² - 2 · ⟨x r, c q⟩) 0),
  the squared distance ‖x r - c q‖² expanded into two squared norms and an inner product over the 64 features,
  clamped below at zero. Both programs compute it in this expanded form; they differ only in where the factor 2
  sits (outside the inner product, or on every term of it) and in how the width is negated (`0 - β` or `-β`).
  On the extended reals a finite nonnegative factor distributes over any finite sum, infinite terms included, so
  the two placements of the 2 agree with no assumption on the inputs.
-/
import Idealize.ShloMosaic.PureOps.Ideal
import Idealize.ShloMosaic.PureOps.Ideal.Laws
import Idealize.ShloMosaic.Lib.ValueIdx
import proofs.«159331_j2430951489991_1_alg».proof.Proof.LibKeepdims

noncomputable section

namespace Cert.Rbf

open Idealize.ShloMosaic Idealize.ShloMosaic.ValueIdx

/-! ## The literal 2.0 -/

/-- The f32 word `0x40000000` both programs spell for the factor of the inner product. -/
abbrev two : EReal := Ideal.ofBits .f32 0x40000000#32

/-- It denotes the real number 2. -/
theorem two_eq : two = ((2 : ℝ) : EReal) := by
  simp [two, Ideal.ofBits, Ideal.ieee, -EReal.coe_mul]; norm_num

theorem two_nonneg : 0 ≤ two := by
  rw [two_eq]; exact EReal.coe_nonneg.mpr (by norm_num)

theorem two_ne_top : two ≠ ⊤ := by
  rw [two_eq]; exact EReal.coe_ne_top _

/-- The factor 2 moves inside a finite sum of extended reals: `2 · Σ f = Σ 2 · f`, whatever infinities the terms
    hold (a finite nonnegative factor distributes over any finite sum). -/
theorem two_mul_sum {ι : Type*} (s : Finset ι) (f : ι → EReal) : two * ∑ k ∈ s, f k = ∑ k ∈ s, two * f k :=
  Cert.LibKeepdims.mul_sum_of_nonneg_of_ne_top two_nonneg two_ne_top s f

/-! ## The layer -/

/-- ‖x r‖²: the sum over the 64 features of the squares of row `r`. -/
def sqNorm {n : Nat} (x : (⟨2, ![n, 64]⟩ : Shape).Idx → EReal) (r : Fin n) : EReal :=
  ∑ d : Fin 64, x (ix2 r d) * x (ix2 r d)

/-- ⟨x r, c q⟩: the inner product of row `r` of the batch with centre `q`. -/
def dot {n k : Nat} (x : (⟨2, ![n, 64]⟩ : Shape).Idx → EReal) (c : (⟨2, ![k, 64]⟩ : Shape).Idx → EReal)
    (r : Fin n) (q : Fin k) : EReal :=
  ∑ d : Fin 64, x (ix2 r d) * c (ix2 q d)

/-- The layer's entry (r, q), from a width `b` already read: exp ((0 - b) · max (‖x r‖² + ‖c q‖² - 2⟨x r, c q⟩) 0). -/
def entry {n k : Nat} (x : (⟨2, ![n, 64]⟩ : Shape).Idx → EReal) (c : (⟨2, ![k, 64]⟩ : Shape).Idx → EReal)
    (b : EReal) (r : Fin n) (q : Fin k) : EReal :=
  Ideal.exp ((0 - b) * max (sqNorm x r + sqNorm c q - two * dot x c r q) 0)

/-- The whole layer: entry (r, q) with centre `q`'s width. -/
def layer {n k : Nat} (x : (⟨2, ![n, 64]⟩ : Shape).Idx → EReal) (c : (⟨2, ![k, 64]⟩ : Shape).Idx → EReal)
    (β : (⟨1, ![k]⟩ : Shape).Idx → EReal) : (⟨2, ![n, k]⟩ : Shape).Idx → EReal :=
  fun i => entry x c (β (ix1 (i 1))) (i 0) (i 1)

/-- An entry reads only row `r` of the batch and row `q` of the centres: two batches that agree on a row (at
    possibly different row numbers, as a block of the batch and the batch itself do) give the same entry. -/
theorem entry_congr {n n' k k' : Nat} {x : (⟨2, ![n, 64]⟩ : Shape).Idx → EReal} {x' : (⟨2, ![n', 64]⟩ : Shape).Idx → EReal}
    {c : (⟨2, ![k, 64]⟩ : Shape).Idx → EReal} {c' : (⟨2, ![k', 64]⟩ : Shape).Idx → EReal} {b b' : EReal}
    {r : Fin n} {r' : Fin n'} {q : Fin k} {q' : Fin k'}
    (hx : ∀ d : Fin 64, x (ix2 r d) = x' (ix2 r' d)) (hc : ∀ d : Fin 64, c (ix2 q d) = c' (ix2 q' d)) (hb : b = b') :
    entry x c b r q = entry x' c' b' r' q' := by
  unfold entry sqNorm dot
  simp only [hx, hc, hb]

end Cert.Rbf

end
-- ==== Proof.RbfReference.lean ====
/-
  The reference program's result is the layer of its arguments.

  Reading the reference one operation at a time, its entry (r, q) is
    exp ((-β q) · max ((0 + Σ_d x[r,d]²) + (0 + Σ_d c[q,d]²) - Σ_d (2 · x[r,d]) · c[q,d]) 0):
  the two squared norms as host sums from an initial 0, the inner product taken of the batch already doubled,
  the width negated. That is the layer's entry: 0 + s = s, -b = 0 - b, and the doubled inner product is twice the
  inner product because (2·a)·b = 2·(a·b) term by term and a finite nonnegative factor moves out of a finite sum
  of extended reals.
-/
import proofs.«159331_j2430951489991_1_alg».proof.Proof.Gen.ReferenceIdeal.Read
import proofs.«159331_j2430951489991_1_alg».proof.Proof.RbfSpec

noncomputable section

namespace Cert.Rbf.Reference

open Cert.ReferenceIdeal Cert.ReferenceIdeal.Gen Cert.ReferenceIdeal.Read
open Idealize.ShloMosaic Idealize.ShloMosaic.ValueIdx

/-- The reference's last stage, as a function of the three argument arrays, is the layer. -/
theorem stage_eq_layer (x : (⟨S65536x64, .f32⟩ : BufTy).Contents (Elt Ideal)) (c : (⟨S512x64, .f32⟩ : BufTy).Contents (Elt Ideal))
    (β : (⟨S512, .f32⟩ : BufTy).Contents (Elt Ideal)) :
    val_main_v20 (F := Ideal) x c β = layer x c β := by
  funext i
  obtain ⟨r, q, rfl⟩ : ∃ (r : Fin 65536) (q : Fin 512), i = ix2 r q := ⟨i 0, i 1, eq_ix2 i⟩
  -- the index each layout operation reads its operand at, in coordinates
  have e1 : ∀ k : Fin 64, idx_main_v1 (idx_main_v2 (idx_main_v6 (ix2 r q))) k = ix2 r k := fun k =>
    funext fun a => Fin.ext (by match a with | ⟨0, _⟩ => rfl | ⟨1, _⟩ => rfl)
  have e4 : ∀ k : Fin 64, idx_main_v4 (idx_main_v5 (idx_main_v7 (ix2 r q))) k = ix2 q k := fun k =>
    funext fun a => Fin.ext (by match a with | ⟨0, _⟩ => rfl | ⟨1, _⟩ => rfl)
  have el : ∀ k : Fin 64, lidx_main_v12 (ix2 r q) k = ix2 r k := fun k =>
    funext fun a => Fin.ext (by match a with | ⟨0, _⟩ => rfl | ⟨1, _⟩ => rfl)
  have er : ∀ k : Fin 64, idx_main_v11 (ridx_main_v12 (ix2 r q) k) = ix2 q k := fun k =>
    funext fun a => Fin.ext (by match a with | ⟨0, _⟩ => rfl | ⟨1, _⟩ => rfl)
  have eb : idx_main_v16 (idx_main_v18 (ix2 r q)) = ix1 q :=
    funext fun a => Fin.ext (by match a with | ⟨0, _⟩ => rfl)
  rw [val_main_v20_apply, val_main_v19_apply, val_main_v18_apply, val_main_v17_apply, val_main_v16_apply,
    val_main_v15_apply, val_main_v14_apply, val_main_cst_2_apply, val_main_v13_apply, val_main_v12_apply,
    val_main_v8_apply, val_main_v7_apply, val_main_v5_apply, val_main_v4_apply, val_main_v6_apply,
    val_main_v2_apply, val_main_v1_apply]
  simp only [val_main_v11_apply, val_main_v10_apply, val_main_v9_apply, val_main_cst_1_apply, val_main_v3_apply,
    val_main_v0_apply, val_main_cst_apply, val_main_cst_0_apply, e1, e4, el, er, eb,
    Ideal.hostUnary_exp_def, Ideal.mulf_def, Ideal.hostNegf_def, Ideal.negf_def, Ideal.maximumf_def, Ideal.subf_def,
    Ideal.addf_def, Ideal.ofBits_def, Ideal.ofBits_zero_f32, zero_add]
  -- what is left: -b = 0 - b, and Σ (2·x)·c = 2 · Σ x·c
  show _ = entry x c (β (ix1 q)) r q
  unfold entry sqNorm dot
  rw [two_mul_sum, zero_sub]
  simp only [mul_assoc]

end Cert.Rbf.Reference

end
-- ==== Proof.RbfPayload.lean ====
/-
  The kernel body's stored value, read at an entry.

  On a block of 2048 batch rows the body stores, at row p and centre q,
    exp ((0 - β q) · max (‖x p‖² + ‖c q‖² - 2 · ⟨x p, c q⟩) 0):
  the batch rows' squared norms are a lane sum kept as a column and laid across the 512 centres, the centres'
  squared norms a lane sum laid out as a row and down the 2048 batch rows, the inner products one matrix product of
  the block with the centres contracted over the 64 features into a zero accumulator, and the widths' row
  negated as `0 - β` and laid down the rows. Read at (p, q) each of these is a plain sum over the 64 features or a
  single entry, and the body's value is the layer's entry for the block's row p.
-/
import proofs.«159331_j2430951489991_1_alg».proof.Proof.Gen.KernelIdeal.Skeleton
import proofs.«159331_j2430951489991_1_alg».proof.Proof.RbfSpec
import proofs.«159331_j2430951489991_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.Rbf.Kernel

open Cert.KernelIdeal Cert.KernelIdeal.Gen
open Idealize.ShloMosaic Idealize.ShloMosaic.ValueIdx Cert.LibKeepdims

/-! ## The matrix product of a block with the centres -/

theorem lhs_dot_0 (i : S2048x512.Idx) (k : dot_S2048x64_S512x64_S2048x512_1_1_0_0_n_n.contr.Idx) :
    (dot_S2048x64_S512x64_S2048x512_1_1_0_0_n_n.lhsIdx i k 0).val = (i 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
theorem lhs_dot_1 (i : S2048x512.Idx) (k : dot_S2048x64_S512x64_S2048x512_1_1_0_0_n_n.contr.Idx) :
    (dot_S2048x64_S512x64_S2048x512_1_1_0_0_n_n.lhsIdx i k 1).val = (k ⟨0, by decide⟩).val :=
  dot_S2048x64_S512x64_S2048x512_1_1_0_0_n_n.lhsIdx_val_of_single rfl i k
theorem rhs_dot_0 (i : S2048x512.Idx) (k : dot_S2048x64_S512x64_S2048x512_1_1_0_0_n_n.contr.Idx) :
    (dot_S2048x64_S512x64_S2048x512_1_1_0_0_n_n.rhsIdx i k 0).val = (i 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
theorem rhs_dot_1 (i : S2048x512.Idx) (k : dot_S2048x64_S512x64_S2048x512_1_1_0_0_n_n.contr.Idx) :
    (dot_S2048x64_S512x64_S2048x512_1_1_0_0_n_n.rhsIdx i k 1).val = (k ⟨0, by decide⟩).val :=
  dot_S2048x64_S512x64_S2048x512_1_1_0_0_n_n.rhsIdx_val_of_single rfl i k

/-- The product of a block of batch rows with the centres, both contracted over their 64 features, into a zero
    accumulator: at (p, q) the inner product of the block's row p with centre q. -/
theorem matmul_entry (x0 : FVec Ideal S2048x64 .f32) (x1 : FVec Ideal S512x64 .f32) (p : Fin 2048) (q : Fin 512) :
    matmul dot_S2048x64_S512x64_S2048x512_1_1_0_0_n_n (some .fp32) x0 x1 (constant S2048x512 .f32 0x00000000#32) (ix2 p q)
      = dot x0 x1 p q := by
  simp only [matmul]
  rw [Ideal.matmul_constant_zero_apply, ← Equiv.sum_comp (ValueIdx.contrEquiv1 dot_S2048x64_S512x64_S2048x512_1_1_0_0_n_n 64 rfl rfl).symm]
  unfold dot
  refine Finset.sum_congr rfl fun k _ => ?_
  have hk := ValueIdx.contrEquiv1_symm_val dot_S2048x64_S512x64_S2048x512_1_1_0_0_n_n 64 rfl rfl k
  have el : dot_S2048x64_S512x64_S2048x512_1_1_0_0_n_n.lhsIdx (ix2 p q) ((ValueIdx.contrEquiv1 dot_S2048x64_S512x64_S2048x512_1_1_0_0_n_n 64 rfl rfl).symm k) = ix2 p k := funext fun a => Fin.ext (by
    match a with
    | ⟨0, _⟩ => exact lhs_dot_0 _ _
    | ⟨1, _⟩ => exact (lhs_dot_1 _ _).trans hk)
  have er : dot_S2048x64_S512x64_S2048x512_1_1_0_0_n_n.rhsIdx (ix2 p q) ((ValueIdx.contrEquiv1 dot_S2048x64_S512x64_S2048x512_1_1_0_0_n_n 64 rfl rfl).symm k) = ix2 q k := funext fun a => Fin.ext (by
    match a with
    | ⟨0, _⟩ => exact rhs_dot_0 _ _
    | ⟨1, _⟩ => exact (rhs_dot_1 _ _).trans hk)
  rw [el, er]

/-! ## The body's value at (p, q) -/

/-- The exponential of a vector, read at an index. -/
theorem exp_apply {s : Shape} (v : FVec Ideal s .f32) (i : s.Idx) : exp v i = Ideal.exp (v i) := rfl

/-- What the body stores, at row `p` of the block and centre `q`, is the layer's entry for that row, that centre and
    the width the widths' row holds at `q`. -/
theorem payload_entry (x0 : Vec Ideal S2048x64 .f32) (x1 : Vec Ideal S512x64 .f32) (x2 : Vec Ideal S1x512 .f32)
    (p : Fin 2048) (q : Fin 512) :
    k0_pay1 (F := Ideal) x0 x1 x2 (ix2 p q) = entry x0 x1 (x2 (ix2 (0 : Fin 1) q)) p q := by
  unfold k0_pay1
  simp only [exp_apply, mulf_apply, subf_apply, addf_apply, maximumf_apply, broadcast_apply]
  simp only [broadcastTo_column, shapeCast_column, broadcastTo_1b_ab_apply, shapeCast_a_1a_apply, matmul_entry,
    shapeCast_self, subf_apply, broadcast_apply, Ideal.ofBits_def, Ideal.ofBits_zero_f32]
  unfold entry
  refine congrArg (fun s => Ideal.exp ((0 - x2 (ix2 (0 : Fin 1) q)) * max (s - two * dot x0 x1 p q) 0)) ?_
  exact congrArg₂ (· + ·) (rowSum (n := 2048) (w := 64) (mulf x0 x0) reduces_S2048x64_S2048 _ _ p)
    (rowSum (n := 512) (w := 64) (mulf x1 x1) reduces_S512x64_S512 _ _ q)

end Cert.Rbf.Kernel

end
-- ==== Proof.RbfBlocks.lean ====
/-
  From blocks to the whole array: the kernel's result is the layer of its arguments.

  The grid has 32 points. Point t stages rows 2048·t … 2048·t + 2047 of the batch, all 512 centres and the widths'
  row (the widths reshaped to one row before the call), and writes back rows 2048·t … 2048·t + 2047 of the result.
  What it writes at row p of its block and centre q is the layer's entry for the block's row p; the block's row p is
  the batch's row 2048·t + p, and an entry reads only that row, so the written block is block t of the layer of
  the whole arrays. Row r of the result lies in the block of point r / 2048, so the 32 blocks fill the array,
  and the array ends holding the layer.
-/
import proofs.«159331_j2430951489991_1_alg».proof.Proof.Gen.KernelIdeal.Value
import proofs.«159331_j2430951489991_1_alg».proof.Proof.RbfPayload
import Idealize.ShloMosaic.Lib.StableHlo.Run

noncomputable section

namespace Cert.Rbf.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One written entry, over plain arrays -/

/-- If a block `x0` holds, in its row `j 0`, row `i 0` of the batch `X`, if `x1` holds in its row `j 1` centre `i 1`
    of `C`, and the widths' row `x2` holds at `j 1` the width of centre `i 1`, then the body's value at `j` is the layer
    of the whole arrays at `i`. -/
theorem written_entry (X : S65536x64.Idx → EReal) (C : S512x64.Idx → EReal) (β : S512.Idx → EReal)
    (x0 : Vec Ideal S2048x64 .f32) (x1 : Vec Ideal S512x64 .f32) (x2 : Vec Ideal S1x512 .f32)
    (j : S2048x512.Idx) (i : S65536x512.Idx)
    (hx : ∀ d : Fin 64, x0 (ix2 (j 0) d) = X (ix2 (i 0) d))
    (hc : ∀ d : Fin 64, x1 (ix2 (j 1) d) = C (ix2 (i 1) d))
    (hb : x2 (ix2 (0 : Fin 1) (j 1)) = β (ix1 (i 1))) :
    k0_pay1 (F := Ideal) x0 x1 x2 j = layer (n := 65536) (k := 512) X C β i := by
  rw [eq_ix2 j]
  refine (payload_entry x0 x1 x2 (j 0) (j 1)).trans ?_
  exact entry_congr hx hc hb

/-! ## The index maps, and the widths' row -/

theorem zero_offsets : (![0, 0] : Fin 2 → Nat) = fun _ => 0 := funext fun a => by fin_cases a <;> rfl

/-- The printed index maps over the 32 points: the batch and the result move with the point along the rows; the
    centres and the widths' row stay at block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The widths' row as the call finds it: the widths reshaped from `[512]` to `[1, 512]`. -/
theorem widths_row (c : Dev nD) :
    (V m c main_v0 : S1x512.Idx → EReal) = shapeCast S1x512 (m ((c : Thread nD τ).loc main_arg2)) shapeCasts_S512_S1x512 := by
  dsimp only [Gen.V, Gen.hostOps0]
  after_results
  rfl

/-! ## What a point writes back -/

/-- Point `t` writes back block `t` of the layer of the arrays as the call finds them. -/
theorem flushed_eq (c : Dev nD) (t : Fin cfg0.N) :
    (dats m 0 c).flushed 3 t = ((cfg0.win 3).blk t).view.read (Elt Ideal)
      (layer (n := 65536) (k := 512) (V m c main_arg0) (V m c main_arg1) (m ((c : Thread nD τ).loc main_arg2))) := by
  rw [Value.flushed3]
  unfold out0_3
  rw [View.canon_unit_zero zero_offsets]
  simp only [View.ld_unit_zero (S := S2048x64) zero_offsets, View.ld_unit_zero (S := S512x64) zero_offsets,
    View.ld_unit_zero (S := S1x512) zero_offsets]
  obtain ⟨a00, a01, a10, a11, a20, a21, a30, a31⟩ := index_facts t
  funext j
  show k0_pay1 (F := Ideal) (iblk m c 0 t) (iblk m c 1 t) (iblk m c 2 t) j
    = layer (n := 65536) (k := 512) (V m c main_arg0) (V m c main_arg1) (m ((c : Thread nD τ).loc main_arg2)) (((cfg0.win 3).blk t).view.emb j)
  refine written_entry (V m c main_arg0) (V m c main_arg1) (m ((c : Thread nD τ).loc main_arg2))
    (iblk m c 0 t) (iblk m c 1 t) (iblk m c 2 t) j (((cfg0.win 3).blk t).view.emb j) ?_ ?_ ?_
  · intro d
    show V m c main_arg0 (((cfg0.win 0).blk t).view.emb (ix2 (j 0) d)) = V m c main_arg0 (ix2 ((((cfg0.win 3).blk t).view.emb j) 0) d)
    refine congrArg (V m c main_arg0) (funext fun a => Fin.ext ?_)
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 64 + 1 * d.val = d.val; omega
  · intro d
    show V m c main_arg1 (((cfg0.win 1).blk t).view.emb (ix2 (j 1) d)) = V m c main_arg1 (ix2 ((((cfg0.win 3).blk t).view.emb j) 1) d)
    refine congrArg (V m c main_arg1) (funext fun a => Fin.ext ?_)
    match a with
    | ⟨0, _⟩ => show win0_1.index t (0 : Fin 2) * 512 + 1 * (j 1).val = win0_3.index t (1 : Fin 2) * 512 + 1 * (j 1).val; omega
    | ⟨1, _⟩ => show win0_1.index t (1 : Fin 2) * 64 + 1 * d.val = d.val; omega
  · show V m c main_v0 (((cfg0.win 2).blk t).view.emb (ix2 (0 : Fin 1) (j 1))) = m ((c : Thread nD τ).loc main_arg2) (ix1 ((((cfg0.win 3).blk t).view.emb j) 1))
    have e : ((cfg0.win 2).blk t).view.emb (ix2 (0 : Fin 1) (j 1)) = ix2 (0 : Fin 1) ((((cfg0.win 3).blk t).view.emb j) 1) :=
      funext fun a => Fin.ext (by
        match a with
        | ⟨0, _⟩ => show win0_2.index t (0 : Fin 2) * 1 + 1 * 0 = 0; omega
        | ⟨1, _⟩ => show win0_2.index t (1 : Fin 2) * 512 + 1 * (j 1).val = win0_3.index t (1 : Fin 2) * 512 + 1 * (j 1).val; omega)
    rw [e, widths_row m c]
    exact shapeCast_a_1a_apply _ shapeCasts_S512_S1x512 (0 : Fin 1) _

/-! ## The blocks fill the array -/

/-- An index of the result is in point `t`'s block iff each coordinate is in the block's range on its axis. -/
theorem mem_block (t : Fin cfg0.N) (i : S65536x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v1).slice (win0_3.rect t)).set ↔ _
  rw [View.set_slice_whole, Rect.mem_set_unit]
  exact Iff.rfl

/-- Row `r` of the result is in the block of point `r / 2048`, which writes back: every index is covered. -/
theorem covered (i : S65536x512.Idx) :
    ∃ t : Fin cfg0.N, (cfg0.win 3).flush t = true ∧ i ∈ ((cfg0.win 3).blk t).view.set := by
  have hN : grid0.N = 32 := N_0
  have hi0 : (i 0).val < 65536 := (i 0).isLt
  have hi1 : (i 1).val < 512 := (i 1).isLt
  have ht : (i 0).val / 2048 < cfg0.N := by show _ < grid0.N; omega
  refine ⟨⟨(i 0).val / 2048, ht⟩, flush0_3 _, ?_⟩
  obtain ⟨-, -, -, -, -, -, a30, a31⟩ := index_facts ⟨(i 0).val / 2048, ht⟩
  have a30' : win0_3.index ⟨(i 0).val / 2048, ht⟩ (0 : Fin 2) = (i 0).val / 2048 := a30
  rw [mem_block]
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    omega
  | ⟨1, _⟩ =>
    show win0_3.index ⟨(i 0).val / 2048, ht⟩ (1 : Fin 2) * 512 ≤ (i 1).val ∧ (i 1).val < win0_3.index ⟨(i 0).val / 2048, ht⟩ (1 : Fin 2) * 512 + 512
    omega

/-! ## The result array, and the run -/

/-- After the run the result array is the layer of the argument arrays as launched. -/
theorem final (c : Dev nD) :
    (dats m 0 c).arrAt 3 cfg0.N = layer (n := 65536) (k := 512) (m ((c : Thread nD τ).loc main_arg0))
      (m ((c : Thread nD τ).loc main_arg1)) (m ((c : Thread nD τ).loc main_arg2)) := by
  have h := (dats m 0 c).arrAt_eq_of_cover 3 _ (fun t _ => flushed_eq m c t) covered
  rw [V_main_arg0, V_main_arg1] at h
  exact h

/-- Every weakly fair execution of the kernel's program terminates with the result array at the layer of the
    arguments, the arguments unchanged. -/
theorem run : θ_run defs (onTc (τ := τ) (main (F := Ideal))) ⟨m, fun _ => 0, ρ⟩ fun r => ∀ c : Dev nD,
      r.2.mem ((c : Thread nD τ).loc main_v1) = layer (n := 65536) (k := 512) (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Rbf.Kernel

end
-- ==== Proof.lean ====
/-
  A radial-basis layer: out[r, q] = exp (-β[q] · ‖x[r] - c[q]‖²), with the squared distance expanded as
  ‖x[r]‖² + ‖c[q]‖² - 2·⟨x[r], c[q]⟩ and clamped below at zero, for a batch x : [65536, 64], centres c : [512, 64]
  and widths β : [512].

  The kernel computes it in 32 blocks of 2048 batch rows: per block the rows' and the centres' squared norms as
  lane sums, the inner products as one matrix product contracted over the 64 features, then the clamp, the product
  with `0 - β` and the exponential. The reference computes the same expansion on whole arrays, with the factor 2
  applied to the batch before the matrix product and the widths negated as `-β`.

  Over the extended reals the two are one function of the three arrays (Proof/RbfSpec.lean's `layer`):
  `0 - b = -b`, a sum from an initial 0 is the sum, and `Σ (2·a)·b = 2·Σ a·b` because multiplication is associative
  and a finite nonnegative factor distributes over a finite sum whatever infinities its terms hold. So the
  equivalence uses nothing of the inputs' finiteness.
    · Proof/RbfReference.lean: the reference's result is `layer` of its arguments;
    · Proof/RbfPayload.lean: what the kernel body stores at (p, q) of a block is the layer's entry for the block's row p;
    · Proof/RbfBlocks.lean: block t of the batch is rows 2048·t … of the batch, the 32 written blocks fill the
      result, and the result array ends at `layer` of the arguments.
  The three frames are the generated ones (the reference's is its run with the result dropped); the idealization
  rewrote nothing, so `preserves` is trivial.
-/
import proofs.«159331_j2430951489991_1_alg».proof.Defs
import proofs.«159331_j2430951489991_1_alg».proof.Proof.Gen.Kernel
import proofs.«159331_j2430951489991_1_alg».proof.Proof.Gen.Kernel.Skeleton
import proofs.«159331_j2430951489991_1_alg».proof.Proof.Gen.Kernel.Launch
import proofs.«159331_j2430951489991_1_alg».proof.Proof.Gen.Kernel.Points
import proofs.«159331_j2430951489991_1_alg».proof.Proof.Gen.Kernel.Frame
import proofs.«159331_j2430951489991_1_alg».proof.Proof.Gen.KernelIdeal
import proofs.«159331_j2430951489991_1_alg».proof.Proof.Gen.KernelIdeal.Skeleton
import proofs.«159331_j2430951489991_1_alg».proof.Proof.Gen.KernelIdeal.Launch
import proofs.«159331_j2430951489991_1_alg».proof.Proof.Gen.KernelIdeal.Points
import proofs.«159331_j2430951489991_1_alg».proof.Proof.Gen.KernelIdeal.Frame
import proofs.«159331_j2430951489991_1_alg».proof.Proof.Gen.ReferenceIdeal
import proofs.«159331_j2430951489991_1_alg».proof.Proof.Gen.Pre_finite_inputs
import proofs.«159331_j2430951489991_1_alg».proof.Proof.Gen.KernelIdeal.Value
import proofs.«159331_j2430951489991_1_alg».proof.Proof.Gen.ReferenceIdeal.Run
import proofs.«159331_j2430951489991_1_alg».proof.Proof.Gen.ReferenceIdeal.Read
import proofs.«159331_j2430951489991_1_alg».proof.Proof.RbfReference
import proofs.«159331_j2430951489991_1_alg».proof.Proof.RbfBlocks
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the batch, the centres and the widths, both programs end with the result array at
    the layer of those three arrays. -/
theorem algebraic : Cert.algebraic_KernelIdeal_ReferenceIdeal := by
  intro m ρ m' ρ' _ hagree
  refine ⟨_, Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Rbf.Reference.stage_eq_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
